-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel

variable [Facts]

def fn {F : FTy → Type} [FloatOps F] (main_arg0 : FVec F S8x256x128x128 .f32) (main_arg1 : FVec F S8x256x128x128 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S8x256x128x128 .f32 := Host.absf main_arg1
  let main_cst_0 : FVec F S_ .f32 := constant S_ .f32 0x7F800000#32
  let main_v5 : FVec F S8x256x128x128 .f32 := broadcastInDim S8x256x128x128 ![] bcast_S_S8x256x128x128 main_cst_0
  let main_v6 : IVec S8x256x128x128 1 := cmpf .olt main_v4 main_v5
  let main_c_1 : IVec S_ 1 := constantI S_ 1 1#1
  let main_v7 : IVec S_ 1 := (fun x v => Host.reduce IntOp.andi x v reducesTo_S8x256x128x128_S_d0_1_2_3 h_S_) main_v6 main_c_1
  let main_v8 : IVec S_ 1 := andi main_v3 main_v7
  main_v8
-- ==== Kernel.lean ====
abbrev S8x256x128x128 : Shape := ⟨4, ![8, 256, 128, 128]⟩
abbrev S8x256x16384 : Shape := ⟨3, ![8, 256, 16384]⟩
abbrev S256x8 : Shape := ⟨2, ![256, 8]⟩
abbrev S8x8x16384 : Shape := ⟨3, ![8, 8, 16384]⟩
abbrev S8x8 : Shape := ⟨2, ![8, 8]⟩
abbrev S8x256 : Shape := ⟨2, ![8, 256]⟩
abbrev S_ : Shape := ⟨0, ![]⟩
abbrev S8 : Shape := ⟨1, ![8]⟩

abbrev nBuf : Space → Nat
  | .hbm => 33
  | .vmem => 10
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S8x256x16384, .f32⟩
  | .hbm, ⟨3, _⟩ => ⟨S8x256x16384, .f32⟩
  | .hbm, ⟨4, _⟩ => ⟨S256x8, .f32⟩
  | .hbm, ⟨5, _⟩ => ⟨S256x8, .f32⟩
  | .hbm, ⟨6, _⟩ => ⟨S256x8, .f32⟩
  | .hbm, ⟨7, _⟩ => ⟨S8x256, .f32⟩
  | .hbm, ⟨8, _⟩ => ⟨S8x256, .f32⟩
  | .hbm, ⟨9, _⟩ => ⟨S8x256, .f32⟩
  | .hbm, ⟨10, _⟩ => ⟨S8x256, .f32⟩
  | .hbm, ⟨11, _⟩ => ⟨S8x256, .f32⟩
  | .hbm, ⟨12, _⟩ => ⟨S8x256, .f32⟩
  | .hbm, ⟨13, _⟩ => ⟨S_, .f32⟩
  | .hbm, ⟨14, _⟩ => ⟨S8x256, .f32⟩
  | .hbm, ⟨15, _⟩ => ⟨S8x256, .f32⟩
  | .hbm, ⟨16, _⟩ => ⟨S8x256, .f32⟩
  | .hbm, ⟨17, _⟩ => ⟨S_, .f32⟩
  | .hbm, ⟨18, _⟩ => ⟨S8x256, .f32⟩
  | .hbm, ⟨19, _⟩ => ⟨S8x256, .f32⟩
  | .hbm, ⟨20, _⟩ => ⟨S_, .f32⟩
  | .hbm, ⟨21, _⟩ => ⟨S8x256, .f32⟩
  | .hbm, ⟨22, _⟩ => ⟨S8x256, .f32⟩
  | .hbm, ⟨23, _⟩ => ⟨S8x256, .f32⟩
  | .hbm, ⟨24, _⟩ => ⟨S_, .f32⟩
  | .hbm, ⟨25, _⟩ => ⟨S8x256, .f32⟩
  | .hbm, ⟨26, _⟩ => ⟨S8x256, .f32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S8x8x16384, .f32⟩
  | .local _ .vmem, ⟨1, _⟩ => ⟨S8x8x16384, .f32⟩
  | .local _ .vmem, ⟨2, _⟩ => ⟨S8x8x16384, .f32⟩
  | .local _ .vmem, ⟨3, _⟩ => ⟨S8x8x16384, .f32⟩
  | .local _ .vmem, ⟨4, _⟩ => ⟨S8x8, .f32⟩
  | .local _ .vmem, ⟨5, _⟩ => ⟨S8x8, .f32⟩
  | .local _ .vmem, ⟨6, _⟩ => ⟨S8x8, .f32⟩
  | .local _ .vmem, ⟨7, _⟩ => ⟨S8x8, .f32⟩
  | .local _ .vmem, ⟨8, _⟩ => ⟨S8x8, .f32⟩
  | .local _ .vmem, ⟨9, _⟩ => ⟨S8x8, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x256x128x128_S8x256x16384 : S8x256x128x128.ShapeCasts S8x256x16384
  inb_S8x8x16384_S8x8x16384_0_0_0 : ∀ a, (![0, 0, 0] : Fin 3 → Nat) a + S8x8x16384.size a ≤ S8x8x16384.size a
  h_S8x8x16384 : 0 < S8x8x16384.numel
  shapeCasts_S8x8x16384_S8x8x16384 : S8x8x16384.ShapeCasts S8x8x16384
  reduces_S8x8x16384_S8x8 : S8x8x16384.Reduces [2] S8x8
  transposes_S8x8_p1_0_S8x8 : S8x8.Transposes [1, 0] S8x8
  inb_S8x8_S8x8_0_0 : ∀ a, (![0, 0] : Fin 2 → Nat) a + S8x8.size a ≤ S8x8.size a
  h_S8x8 : 0 < S8x8.numel
  transposes_S256x8_S8x256_1_0 : S256x8.Transposes [1, 0] S8x256
  bcast_S_S8x256 : S_.BroadcastsInDim S8x256 (![] : Fin 0 → Fin S8x256.rank)
  reducesTo_S8x256_S8_d1 : S8x256.ReducesTo [1] S8
  h_S_ : 0 < S_.numel
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x16384.size a ≤ S8x256x16384.size a
  hwx0_0 : ∀ i : grid0.Coords, EltTy.bits .f32 = 32 ∨ (Rect.block (s := S8x256x16384) S8x8x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x16384.size a ≤ S8x256x16384.size a
  hwx0_1 : ∀ i : grid0.Coords, EltTy.bits .f32 = 32 ∨ (Rect.block (s := S8x256x16384) S8x8x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8.size a ≤ S256x8.size a
  hwx0_2 : ∀ i : grid0.Coords, EltTy.bits .f32 = 32 ∨ (Rect.block (s := S256x8) S8x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x8.size a ≤ S256x8.size a
  hwx0_3 : ∀ i : grid0.Coords, EltTy.bits .f32 = 32 ∨ (Rect.block (s := S256x8) S8x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x8.size a ≤ S256x8.size a
  hwx0_4 : ∀ i : grid0.Coords, EltTy.bits .f32 = 32 ∨ (Rect.block (s := S256x8) S8x8.size (cc0_transform_4 i) (hinb0_4 i)).WholeWords (EltTy.packing .f32)

variable [Facts₀]

abbrev win0_0 : Pipeline.Window sig grid0 :=
  Pipeline.Window.ofSpec (Memref.whole main_v0) S8x8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x8x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x8.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S8x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x128x128 : Shape := ⟨4, ![8, 256, 128, 128]⟩
abbrev S8x256x16384 : Shape := ⟨3, ![8, 256, 16384]⟩
abbrev S_ : Shape := ⟨0, ![]⟩
abbrev S8x256 : Shape := ⟨2, ![8, 256]⟩
abbrev S8x256x1 : Shape := ⟨3, ![8, 256, 1]⟩
abbrev S8 : Shape := ⟨1, ![8]⟩

abbrev nBuf : Space → Nat
  | .hbm => 41
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S8x256x16384, .f32⟩
  | .hbm, ⟨3, _⟩ => ⟨S8x256x16384, .f32⟩
  | .hbm, ⟨4, _⟩ => ⟨S8x256x16384, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S8x256x1, .f32⟩
  | .hbm, ⟨9, _⟩ => ⟨S8x256x16384, .f32⟩
  | .hbm, ⟨10, _⟩ => ⟨S8x256x16384, .f32⟩
  | .hbm, ⟨11, _⟩ => ⟨S8x256x16384, .f32⟩
  | .hbm, ⟨12, _⟩ => ⟨S_, .f32⟩
  | .hbm, ⟨13, _⟩ => ⟨S8x256, .f32⟩
  | .hbm, ⟨14, _⟩ => ⟨S8x256x1, .f32⟩
  | .hbm, ⟨15, _⟩ => ⟨S8x256x1, .f32⟩
  | .hbm, ⟨16, _⟩ => ⟨S8x256x16384, .f32⟩
  | .hbm, ⟨17, _⟩ => ⟨S8x256x16384, .f32⟩
  | .hbm, ⟨18, _⟩ => ⟨S8x256x16384, .f32⟩
  | .hbm, ⟨19, _⟩ => ⟨S_, .f32⟩
  | .hbm, ⟨20, _⟩ => ⟨S8x256, .f32⟩
  | .hbm, ⟨21, _⟩ => ⟨S_, .f32⟩
  | .hbm, ⟨22, _⟩ => ⟨S8x256, .f32⟩
  | .hbm, ⟨23, _⟩ => ⟨S8x256, .f32⟩
  | .hbm, ⟨24, _⟩ => ⟨S8x256, .f32⟩
  | .hbm, ⟨25, _⟩ => ⟨S_, .f32⟩
  | .hbm, ⟨26, _⟩ => ⟨S8x256, .f32⟩
  | .hbm, ⟨27, _⟩ => ⟨S8x256, .f32⟩
  | .hbm, ⟨28, _⟩ => ⟨S_, .f32⟩
  | .hbm, ⟨29, _⟩ => ⟨S8x256, .f32⟩
  | .hbm, ⟨30, _⟩ => ⟨S8x256, .f32⟩
  | .hbm, ⟨31, _⟩ => ⟨S8x256, .f32⟩
  | .hbm, ⟨32, _⟩ => ⟨S_, .f32⟩
  | .hbm, ⟨33, _⟩ => ⟨S8x256, .f32⟩
  | .hbm, ⟨34, _⟩ => ⟨S8x256, .f32⟩
  | .hbm, ⟨35, _⟩ => ⟨S_, .f32⟩
  | .hbm, ⟨36, _⟩ => ⟨S8, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩

abbrev nD : Nat := 1
abbrev τ : Topo := Topo.v7x

variable {F : FTy → Type} [FloatOps F]

class Facts₀ : Prop where
  shapeCasts_S8x256x128x128_S8x256x16384 : S8x256x128x128.ShapeCasts S8x256x16384
  reducesTo_S8x256x16384_S8x256_d2 : S8x256x16384.ReducesTo [2] S8x256
  h_S_ : 0 < S_.numel
  bcast_S8x256_S8x256x1_0_1 : S8x256.BroadcastsInDim S8x256x1 (![0, 1] : Fin 2 → Fin S8x256x1.rank)
  bcast_S8x256x1_S8x256x16384_0_1_2 : S8x256x1.BroadcastsInDim S8x256x16384 (![0, 1, 2] : Fin 3 → Fin S8x256x16384.rank)
  bcast_S_S8x256 : S_.BroadcastsInDim S8x256 (![] : Fin 0 → Fin S8x256.rank)
  reducesTo_S8x256_S8_d1 : S8x256.ReducesTo [1] S8
  reducesTo_S8_S_d0 : S8.ReducesTo [0] S_

variable [Facts₀]

class Facts : Prop extends Facts₀ where

variable [Facts]
-- ==== Proof.KernelArrays.lean ====
/-
  The three arrays the kernel region leaves, index by index.

  The region reads s, t as [8, 256, 16384] arrays (batch, channel, lane) in blocks of 8 channels and writes,
  per block, the three lane products ⟨s,s⟩, ⟨t,t⟩, ⟨s,t⟩ of every (batch, channel) of the block, transposed
  to (channel, batch). So each output array, of shape [256, 8], holds at (channel ch, batch b) the sum over the
  16384 lanes of the product of the two inputs' entries at (b, ch, lane).
-/
import proofs.«109314_j4492535792361_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen

/-! ## The specification -/

/-- The lane product of two [8, 256, 16384] arrays at batch b, channel ch: the sum over the 16384 lanes of the
    products of their entries at (b, ch, lane). Kept closed; its defining equation is the lemma below. -/
@[irreducible] def laneDot (X Y : S8x256x16384.Idx → EReal) (b : Fin 8) (ch : Fin 256) : EReal :=
  ∑ k : Fin 16384, X (ix3 b ch k) * Y (ix3 b ch k)

theorem laneDot_def (X Y : S8x256x16384.Idx → EReal) (b : Fin 8) (ch : Fin 256) :
    laneDot X Y b ch = ∑ k : Fin 16384, X (ix3 b ch k) * Y (ix3 b ch k) := by
  unfold laneDot; rfl

/-- The lane products as a [256, 8] array: entry (ch, b). -/
def G (X Y : S8x256x16384.Idx → EReal) : S256x8.Idx → EReal := fun i => laneDot X Y (i 1) (i 0)

/-! ## The body's payloads at an index -/

theorem hz2 : (![0, 0] : Fin 2 → Nat) = fun _ => 0 := funext fun a => by fin_cases a <;> rfl
theorem hz3 : (![0, 0, 0] : Fin 3 → Nat) = fun _ => 0 := funext fun a => by fin_cases a <;> rfl

/-- Multiply two blocks entry by entry, sum over the lanes, transpose: at (channel p, batch q) of the
    block this is the lane product of the rows (q, p). -/
theorem redT_apply (u v : FVec Ideal S8x8x16384 .f32) (p q : Fin 8) :
    transpose S8x8 [1, 0] (multiReduction .add [2] S8x8
        (mulf (shapeCast S8x8x16384 u shapeCasts_S8x8x16384_S8x8x16384) (shapeCast S8x8x16384 v shapeCasts_S8x8x16384_S8x8x16384))
        0x00000000#32 reduces_S8x8x16384_S8x8 (.inl rfl) rfl) transposes_S8x8_p1_0_S8x8 (ix2 p q)
      = ∑ k : Fin 16384, u (ix3 q p k) * v (ix3 q p k) := by
  rw [transpose_ix2_apply]
  refine (Ideal.multiReduction_add_single _ 0x00000000#32 reduces_S8x8x16384_S8x8 (.inl rfl) rfl (ix2 q p)).trans ?_
  refine Finset.sum_congr rfl fun k _ => ?_
  have e : reduces_S8x8x16384_S8x8.lift (ix2 q p) k = (ix3 q p (k : Fin 16384) : S8x8x16384.Idx) :=
    funext fun a => Fin.ext (by match a with | ⟨0, _⟩ => rfl | ⟨1, _⟩ => rfl | ⟨2, _⟩ => rfl)
  rw [e, mulf_apply, shapeCast_self, shapeCast_self]

theorem pay3_apply (x0 : Vec Ideal S8x8x16384 .f32) (p q : Fin 8) :
    k0_pay3 (F := Ideal) x0 (ix2 p q) = ∑ k : Fin 16384, x0 (ix3 q p k) * x0 (ix3 q p k) :=
  redT_apply x0 x0 p q

theorem pay4_apply (x1 : Vec Ideal S8x8x16384 .f32) (p q : Fin 8) :
    k0_pay4 (F := Ideal) x1 (ix2 p q) = ∑ k : Fin 16384, x1 (ix3 q p k) * x1 (ix3 q p k) :=
  redT_apply x1 x1 p q

theorem pay5_apply (x0 x1 : Vec Ideal S8x8x16384 .f32) (p q : Fin 8) :
    k0_pay5 (F := Ideal) x0 x1 (ix2 p q) = ∑ k : Fin 16384, x0 (ix3 q p k) * x1 (ix3 q p k) :=
  redT_apply x0 x1 p q

/-- The same three payloads as functions of the block index (channel, batch). -/
def blockDot (u v : Vec Ideal S8x8x16384 .f32) : Vec Ideal S8x8 .f32 :=
  fun j => ∑ k : Fin 16384, u (ix3 (j 1) (j 0) k) * v (ix3 (j 1) (j 0) k)

theorem blockDot_apply (u v : Vec Ideal S8x8x16384 .f32) (p q : Fin 8) :
    blockDot u v (ix2 p q) = ∑ k : Fin 16384, u (ix3 q p k) * v (ix3 q p k) := rfl

theorem pay3_fun (x0 : Vec Ideal S8x8x16384 .f32) : k0_pay3 (F := Ideal) x0 = blockDot x0 x0 := by
  funext j
  obtain ⟨p, q, rfl⟩ : ∃ p q : Fin 8, j = ix2 p q := ⟨j 0, j 1, eq_ix2 j⟩
  exact pay3_apply x0 p q

theorem pay4_fun (x1 : Vec Ideal S8x8x16384 .f32) : k0_pay4 (F := Ideal) x1 = blockDot x1 x1 := by
  funext j
  obtain ⟨p, q, rfl⟩ : ∃ p q : Fin 8, j = ix2 p q := ⟨j 0, j 1, eq_ix2 j⟩
  exact pay4_apply x1 p q

theorem pay5_fun (x0 x1 : Vec Ideal S8x8x16384 .f32) : k0_pay5 (F := Ideal) x0 x1 = blockDot x0 x1 := by
  funext j
  obtain ⟨p, q, rfl⟩ : ∃ p q : Fin 8, j = ix2 p q := ⟨j 0, j 1, eq_ix2 j⟩
  exact pay5_apply x0 x1 p q

/-! ## Blocks and arrays -/

variable (m : (ℓ : Loc nD τ sig) → Buf (Elt Ideal) ℓ) (ρ : Dev nD → PrngReg)

/-- The two input arrays as the region finds them, and the two input blocks at a point, at their literal types. -/
abbrev sarr (c : Dev nD) : S8x256x16384.Idx → EReal := V m c main_v0
abbrev tarr (c : Dev nD) : S8x256x16384.Idx → EReal := V m c main_v1
abbrev sblk (c : Dev nD) (t : Fin cfg0.N) : Vec Ideal S8x8x16384 .f32 := iblk m c 0 t
abbrev tblk (c : Dev nD) (t : Fin cfg0.N) : Vec Ideal S8x8x16384 .f32 := iblk m c 1 t

/-- The printed index maps, decided over the 32 grid points: the inputs' blocks take every batch and lane and the
    channels of the output's block row; the outputs' blocks take every batch; the three outputs move together. -/
theorem idx_facts : ∀ t : Fin cfg0.N,
    win0_0.index t (0 : Fin 3) = 0 ∧ win0_0.index t (1 : Fin 3) = win0_2.index t (0 : Fin 2) ∧ win0_0.index t (2 : Fin 3) = 0
    ∧ win0_1.index t (0 : Fin 3) = 0 ∧ win0_1.index t (1 : Fin 3) = win0_2.index t (0 : Fin 2) ∧ win0_1.index t (2 : Fin 3) = 0
    ∧ win0_2.index t (1 : Fin 2) = 0 ∧ win0_2.index t (0 : Fin 2) ≤ 31
    ∧ win0_3.index t (0 : Fin 2) = win0_2.index t (0 : Fin 2) ∧ win0_3.index t (1 : Fin 2) = 0
    ∧ win0_4.index t (0 : Fin 2) = win0_2.index t (0 : Fin 2) ∧ win0_4.index t (1 : Fin 2) = 0 :=
  (by decide +kernel : ∀ t : Fin grid0.N, _)

/-- Every block row of the outputs is some point's. -/
theorem idx_onto : ∀ q0 : Fin 32, ∃ t : Fin cfg0.N, win0_2.index t (0 : Fin 2) = q0.val :=
  (by decide +kernel : ∀ q0 : Fin 32, ∃ t : Fin grid0.N, win0_2.index t (0 : Fin 2) = q0.val)

/-- The first input's block at a point, at (batch q, channel p of the block, lane k), is the array at that batch
    and lane and at channel 8·(block row) + p. -/
theorem sblk_apply (c : Dev nD) (t : Fin cfg0.N) (q p : Fin 8) (k : Fin 16384) (b : Fin 8) (ch : Fin 256)
    (hb : b.val = q.val) (hch : ch.val = win0_2.index t (0 : Fin 2) * 8 + p.val) :
    sblk m c t (ix3 q p k) = sarr m c (ix3 b ch k) := by
  obtain ⟨e0, e1, e2, -⟩ := idx_facts t
  show V m c main_v0 (((cfg0.win 0).blk t).view.emb (ix3 q p k)) = V m c main_v0 (ix3 b ch k)
  refine congrArg _ (funext fun a => Fin.ext ?_)
  match a with
  | ⟨0, _⟩ => show win0_0.index t (0 : Fin 3) * 8 + 1 * q.val = b.val; omega
  | ⟨1, _⟩ => show win0_0.index t (1 : Fin 3) * 8 + 1 * p.val = ch.val; omega
  | ⟨2, _⟩ => show win0_0.index t (2 : Fin 3) * 16384 + 1 * k.val = k.val; omega

/-- The second input's block likewise. -/
theorem tblk_apply (c : Dev nD) (t : Fin cfg0.N) (q p : Fin 8) (k : Fin 16384) (b : Fin 8) (ch : Fin 256)
    (hb : b.val = q.val) (hch : ch.val = win0_2.index t (0 : Fin 2) * 8 + p.val) :
    tblk m c t (ix3 q p k) = tarr m c (ix3 b ch k) := by
  obtain ⟨-, -, -, e3, e4, e5, -⟩ := idx_facts t
  show V m c main_v1 (((cfg0.win 1).blk t).view.emb (ix3 q p k)) = V m c main_v1 (ix3 b ch k)
  refine congrArg _ (funext fun a => Fin.ext ?_)
  match a with
  | ⟨0, _⟩ => show win0_1.index t (0 : Fin 3) * 8 + 1 * q.val = b.val; omega
  | ⟨1, _⟩ => show win0_1.index t (1 : Fin 3) * 8 + 1 * p.val = ch.val; omega
  | ⟨2, _⟩ => show win0_1.index t (2 : Fin 3) * 16384 + 1 * k.val = k.val; omega

/-- WHAT A POINT WRITES BACK to the first output is its block of the lane products of s with s. -/
theorem flushed2_eq (c : Dev nD) (t : Fin cfg0.N) :
    (dats m 0 c).flushed 2 t = ((cfg0.win 2).blk t).view.read (Elt Ideal) (G (sarr m c) (sarr m c)) := by
  show (cfg0.win 2).cut (grid0.coords t) ((dats m 0 c).after 2 t) = _
  rw [after0_2]
  unfold out0_2
  rw [View.canon_unit_zero hz2]
  simp only [View.ld_unit_zero (S := S8x8x16384) hz3]
  rw [pay3_fun]
  funext j
  obtain ⟨p, q, rfl⟩ : ∃ p q : Fin 8, j = ix2 p q := ⟨j 0, j 1, eq_ix2 j⟩
  obtain ⟨-, -, -, -, -, -, e6, -⟩ := idx_facts t
  show blockDot (sblk m c t) (sblk m c t) (ix2 p q) = G (sarr m c) (sarr m c) (((cfg0.win 2).blk t).view.emb (ix2 p q))
  rw [blockDot_apply]
  unfold G
  refine Eq.trans ?_ (laneDot_def _ _ _ _).symm
  refine Finset.sum_congr rfl fun k _ => ?_
  have hb : ((((cfg0.win 2).blk t).view.emb (ix2 p q)) 1).val = q.val := by
    show win0_2.index t (1 : Fin 2) * 8 + 1 * q.val = q.val; omega
  have hch : ((((cfg0.win 2).blk t).view.emb (ix2 p q)) 0).val = win0_2.index t (0 : Fin 2) * 8 + p.val := by
    show win0_2.index t (0 : Fin 2) * 8 + 1 * p.val = _; omega
  rw [sblk_apply m c t q p k _ _ hb hch]

/-- WHAT A POINT WRITES BACK to the second output is its block of the lane products of t with t. -/
theorem flushed3_eq (c : Dev nD) (t : Fin cfg0.N) :
    (dats m 0 c).flushed 3 t = ((cfg0.win 3).blk t).view.read (Elt Ideal) (G (tarr m c) (tarr m c)) := by
  show (cfg0.win 3).cut (grid0.coords t) ((dats m 0 c).after 3 t) = _
  rw [after0_3]
  unfold out0_3
  rw [View.canon_unit_zero hz2]
  simp only [View.ld_unit_zero (S := S8x8x16384) hz3]
  rw [pay4_fun]
  funext j
  obtain ⟨p, q, rfl⟩ : ∃ p q : Fin 8, j = ix2 p q := ⟨j 0, j 1, eq_ix2 j⟩
  obtain ⟨-, -, -, -, -, -, -, -, e8, e9, -⟩ := idx_facts t
  show blockDot (tblk m c t) (tblk m c t) (ix2 p q) = G (tarr m c) (tarr m c) (((cfg0.win 3).blk t).view.emb (ix2 p q))
  rw [blockDot_apply]
  unfold G
  refine Eq.trans ?_ (laneDot_def _ _ _ _).symm
  refine Finset.sum_congr rfl fun k _ => ?_
  have hb : ((((cfg0.win 3).blk t).view.emb (ix2 p q)) 1).val = q.val := by
    show win0_3.index t (1 : Fin 2) * 8 + 1 * q.val = q.val; omega
  have hch : ((((cfg0.win 3).blk t).view.emb (ix2 p q)) 0).val = win0_2.index t (0 : Fin 2) * 8 + p.val := by
    show win0_3.index t (0 : Fin 2) * 8 + 1 * p.val = _; omega
  rw [tblk_apply m c t q p k _ _ hb hch]

/-- WHAT A POINT WRITES BACK to the third output is its block of the lane products of s with t. -/
theorem flushed4_eq (c : Dev nD) (t : Fin cfg0.N) :
    (dats m 0 c).flushed 4 t = ((cfg0.win 4).blk t).view.read (Elt Ideal) (G (sarr m c) (tarr m c)) := by
  show (cfg0.win 4).cut (grid0.coords t) ((dats m 0 c).after 4 t) = _
  rw [after0_4]
  unfold out0_4
  rw [View.canon_unit_zero hz2]
  simp only [View.ld_unit_zero (S := S8x8x16384) hz3]
  rw [pay5_fun]
  funext j
  obtain ⟨p, q, rfl⟩ : ∃ p q : Fin 8, j = ix2 p q := ⟨j 0, j 1, eq_ix2 j⟩
  obtain ⟨-, -, -, -, -, -, -, -, -, -, e10, e11⟩ := idx_facts t
  show blockDot (sblk m c t) (tblk m c t) (ix2 p q) = G (sarr m c) (tarr m c) (((cfg0.win 4).blk t).view.emb (ix2 p q))
  rw [blockDot_apply]
  unfold G
  refine Eq.trans ?_ (laneDot_def _ _ _ _).symm
  refine Finset.sum_congr rfl fun k _ => ?_
  have hb : ((((cfg0.win 4).blk t).view.emb (ix2 p q)) 1).val = q.val := by
    show win0_4.index t (1 : Fin 2) * 8 + 1 * q.val = q.val; omega
  have hch : ((((cfg0.win 4).blk t).view.emb (ix2 p q)) 0).val = win0_2.index t (0 : Fin 2) * 8 + p.val := by
    show win0_4.index t (0 : Fin 2) * 8 + 1 * p.val = _; omega
  rw [sblk_apply m c t q p k _ _ hb hch, tblk_apply m c t q p k _ _ hb hch]

/-! ## The cover: every (channel, batch) is in the block of the point of its block row -/

theorem mem_blk2 (t : Fin cfg0.N) (i : S256x8.Idx) :
    i ∈ ((cfg0.win 2).blk t).view.set ↔ ∀ a : Fin 2, win0_2.index t a * S8x8.size a ≤ (i a).val ∧ (i a).val < win0_2.index t a * S8x8.size a + S8x8.size a := by
  show i ∈ ((View.whole main_v2_0).slice (win0_2.rect t)).set ↔ _
  rw [View.set_slice_whole, Rect.mem_set_unit]
  exact Iff.rfl

theorem mem_blk3 (t : Fin cfg0.N) (i : S256x8.Idx) :
    i ∈ ((cfg0.win 3).blk t).view.set ↔ ∀ a : Fin 2, win0_3.index t a * S8x8.size a ≤ (i a).val ∧ (i a).val < win0_3.index t a * S8x8.size a + S8x8.size a := by
  show i ∈ ((View.whole main_v2_1).slice (win0_3.rect t)).set ↔ _
  rw [View.set_slice_whole, Rect.mem_set_unit]
  exact Iff.rfl

theorem mem_blk4 (t : Fin cfg0.N) (i : S256x8.Idx) :
    i ∈ ((cfg0.win 4).blk t).view.set ↔ ∀ a : Fin 2, win0_4.index t a * S8x8.size a ≤ (i a).val ∧ (i a).val < win0_4.index t a * S8x8.size a + S8x8.size a := by
  show i ∈ ((View.whole main_v2_2).slice (win0_4.rect t)).set ↔ _
  rw [View.set_slice_whole, Rect.mem_set_unit]
  exact Iff.rfl

theorem cover2 (i : S256x8.Idx) : ∃ t : Fin cfg0.N, (cfg0.win 2).flush t = true ∧ i ∈ ((cfg0.win 2).blk t).view.set := by
  have hi0 : (i 0).val < 256 := (i 0).isLt
  have hi1 : (i 1).val < 8 := (i 1).isLt
  obtain ⟨t, ht⟩ := idx_onto ⟨(i 0).val / 8, by omega⟩
  have q0 : win0_2.index t (0 : Fin 2) = (i 0).val / 8 := ht
  obtain ⟨-, -, -, -, -, -, e6, -⟩ := idx_facts t
  refine ⟨t, flush0_2 t, ?_⟩
  rw [mem_blk2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 8 ≤ (i 1).val ∧ (i 1).val < win0_2.index t (1 : Fin 2) * 8 + 8; omega

theorem cover3 (i : S256x8.Idx) : ∃ t : Fin cfg0.N, (cfg0.win 3).flush t = true ∧ i ∈ ((cfg0.win 3).blk t).view.set := by
  have hi0 : (i 0).val < 256 := (i 0).isLt
  have hi1 : (i 1).val < 8 := (i 1).isLt
  obtain ⟨t, ht⟩ := idx_onto ⟨(i 0).val / 8, by omega⟩
  have q0 : win0_2.index t (0 : Fin 2) = (i 0).val / 8 := ht
  obtain ⟨-, -, -, -, -, -, -, -, e8, e9, -⟩ := idx_facts t
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 8 ≤ (i 1).val ∧ (i 1).val < win0_3.index t (1 : Fin 2) * 8 + 8; omega

theorem cover4 (i : S256x8.Idx) : ∃ t : Fin cfg0.N, (cfg0.win 4).flush t = true ∧ i ∈ ((cfg0.win 4).blk t).view.set := by
  have hi0 : (i 0).val < 256 := (i 0).isLt
  have hi1 : (i 1).val < 8 := (i 1).isLt
  obtain ⟨t, ht⟩ := idx_onto ⟨(i 0).val / 8, by omega⟩
  have q0 : win0_2.index t (0 : Fin 2) = (i 0).val / 8 := ht
  obtain ⟨-, -, -, -, -, -, -, -, -, -, e10, e11⟩ := idx_facts t
  refine ⟨t, flush0_4 t, ?_⟩
  rw [mem_blk4]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 8 ≤ (i 1).val ∧ (i 1).val < win0_4.index t (1 : Fin 2) * 8 + 8; omega

/-! ## The three arrays after the region -/

theorem final2 (c : Dev nD) : (dats m 0 c).arrAt 2 cfg0.N = G (sarr m c) (sarr m c) :=
  (dats m 0 c).arrAt_eq_of_cover 2 _ (fun t _ => flushed2_eq m c t) cover2

theorem final3 (c : Dev nD) : (dats m 0 c).arrAt 3 cfg0.N = G (tarr m c) (tarr m c) :=
  (dats m 0 c).arrAt_eq_of_cover 3 _ (fun t _ => flushed3_eq m c t) cover3

theorem final4 (c : Dev nD) : (dats m 0 c).arrAt 4 cfg0.N = G (sarr m c) (tarr m c) :=
  (dats m 0 c).arrAt_eq_of_cover 4 _ (fun t _ => flushed4_eq m c t) cover4

end Cert.KernelIdeal.Arrays

end
-- ==== Proof.Loss.lean ====
/-
  The scalar mathematics of the affinity loss, on the extended reals.

  Per (batch, channel) both programs end in the same function of a cosine x:
  loss x = sqrt (max (2 - 2·x·x) 0) / 16384. One program takes the cosine as
  ⟨s,t⟩ / sqrt (⟨s,s⟩·⟨t,t⟩), the other as the sum over the lanes of (s_k / ‖s‖)·(t_k / ‖t‖).
  For real vectors with both norms positive these are one real number. When a norm is zero every
  quotient by it is 0/0 = ⊥, the two cosines may differ (⊥ against ⊥ or ⊤), and the loss
  is 0 at both infinities; so the losses agree everywhere.
-/
import Idealize.ShloMosaic.PureOps.Ideal
import Idealize.ShloMosaic.PureOps.Ideal.Laws

noncomputable section

namespace Cert.Affinity

open Idealize.ShloMosaic

/-! ## The literals -/

theorem two_eq : Ideal.ofBits .f32 0x40000000#32 = ((2 : ℝ) : EReal) := by
  simp [Ideal.ofBits, Ideal.ieee, -EReal.coe_mul]; norm_num

theorem hw_eq : Ideal.ofBits .f32 0x46800000#32 = ((16384 : ℝ) : EReal) := by
  simp [Ideal.ofBits, Ideal.ieee, -EReal.coe_mul]; norm_num

/-! ## A channel's loss from its cosine -/

/-- sqrt (max (2 - (2·x)·x) 0) / 16384, with the literals as the programs print them. -/
def loss (x : EReal) : EReal :=
  Ideal.div (Ideal.sqrt (max (Ideal.ofBits .f32 0x40000000#32 - Ideal.ofBits .f32 0x40000000#32 * x * x)
    (Ideal.ofBits .f32 0x00000000#32))) (Ideal.ofBits .f32 0x46800000#32)

theorem sqrt_zero : Ideal.sqrt 0 = 0 := by
  rw [← EReal.coe_zero, Ideal.sqrt_coe, if_neg (lt_irrefl _), Real.sqrt_zero]

theorem div_zero_hw : Ideal.div 0 ((16384 : ℝ) : EReal) = 0 := by
  rw [Ideal.div_coe (by norm_num), zero_mul]

/-- At +∞ the radicand is 2 - ∞ = -∞, clipped to 0. -/
theorem loss_top : loss ⊤ = 0 := by
  unfold loss
  rw [two_eq, hw_eq, Ideal.ofBits_zero_f32, EReal.coe_mul_top_of_pos (by norm_num), EReal.top_mul_top,
    EReal.sub_top, max_eq_right bot_le, sqrt_zero, div_zero_hw]

/-- At -∞ likewise: (2·(-∞))·(-∞) = +∞. -/
theorem loss_bot : loss ⊥ = 0 := by
  unfold loss
  rw [two_eq, hw_eq, Ideal.ofBits_zero_f32, EReal.coe_mul_bot_of_pos (by norm_num), EReal.bot_mul_bot,
    EReal.sub_top, max_eq_right bot_le, sqrt_zero, div_zero_hw]

theorem loss_inf {x : EReal} (h : x = ⊥ ∨ x = ⊤) : loss x = 0 := by
  rcases h with rfl | rfl
  · exact loss_bot
  · exact loss_top

/-! ## Sums on the extended reals -/

/-- A finite sum of reals, taken in the extended reals, is the real sum. -/
theorem coe_sum {K : Type} (S : Finset K) (f : K → ℝ) :
    (∑ k ∈ S, ((f k : ℝ) : EReal)) = ((∑ k ∈ S, f k : ℝ) : EReal) := by
  classical
  induction S using Finset.induction_on with
  | empty => simp
  | insert a S ha ih => rw [Finset.sum_insert ha, Finset.sum_insert ha, ih, EReal.coe_add]

/-- A sum none of whose terms is -∞ is not -∞. -/
theorem sum_ne_bot {K : Type} (S : Finset K) (f : K → EReal) (h : ∀ k ∈ S, f k ≠ ⊥) : ∑ k ∈ S, f k ≠ ⊥ := by
  classical
  induction S using Finset.induction_on with
  | empty => simp
  | insert a S ha ih =>
    rw [Finset.sum_insert ha]
    intro hbot
    rcases EReal.add_eq_bot_iff.mp hbot with h1 | h1
    · exact h a (Finset.mem_insert_self a S) h1
    · exact ih (fun k hk => h k (Finset.mem_insert_of_mem hk)) h1

/-- A finite sum with an infinite term is infinite: -∞ if some term is, else +∞. -/
theorem sum_inf {K : Type} [Fintype K] (f : K → EReal) (k₀ : K) (h : f k₀ = ⊥ ∨ f k₀ = ⊤) :
    ∑ k, f k = ⊥ ∨ ∑ k, f k = ⊤ := by
  classical
  by_cases hb : ∃ k, f k = ⊥
  · obtain ⟨k, hk⟩ := hb
    left
    rw [← Finset.add_sum_erase Finset.univ f (Finset.mem_univ k), hk, EReal.bot_add]
  · right
    have hne : ∀ k, f k ≠ ⊥ := fun k hk => hb ⟨k, hk⟩
    have htop : f k₀ = ⊤ := h.resolve_left (hne k₀)
    rw [← Finset.add_sum_erase Finset.univ f (Finset.mem_univ k₀), htop]
    exact EReal.top_add_of_ne_bot (sum_ne_bot _ f fun k _ => hne k)

end Cert.Affinity

end
-- ==== Proof.Tail.lean ====
/-
  The end both programs share: from the [8, 256] array of cosines to the scalar result.

  Each (batch, channel) cosine x gives the loss sqrt (max (2 - 2·x·x) 0) / 16384; the losses are summed over the
  channels, then over the batch, and the total is divided by 8. The shape facts the operations take are
  hypotheses here, so that either program's own facts fit; a proposition's proofs are all equal, so the two
  programs' terms are literally these.
-/
import proofs.«109314_j4492535792361_1_alg».proof.Proof.Loss
import Idealize.ShloMosaic.Lib.ValueIdx
import Idealize.ShloMosaic.Lib.Pipeline.Value
import Idealize.ShloMosaic.PureOps.Ideal.Laws

noncomputable section

namespace Cert.Affinity

open Idealize.ShloMosaic Idealize.ShloMosaic.ValueIdx

/-- Batch by channel, batch, and the scalar shape. -/
abbrev SBC : Shape := ⟨2, ![8, 256]⟩
abbrev SB : Shape := ⟨1, ![8]⟩
abbrev S0 : Shape := ⟨0, ![]⟩

/-- A scalar constant laid over the [8, 256] array reads as the constant everywhere. -/
theorem bcast_const (hb : S0.BroadcastsInDim SBC (![] : Fin 0 → Fin SBC.rank)) (w : BitVec 32) (i : SBC.Idx) :
    broadcastInDim SBC ![] hb (constant (F := Ideal) S0 .f32 w) i = Ideal.ofBits .f32 w :=
  broadcastInDim_apply _ hb _ i (fun a => a.elim0) (fun a => a.elim0)

/-- The loss of every (batch, channel) from the array of cosines, operation by operation as both programs print it. -/
def lossV (hb : S0.BroadcastsInDim SBC (![] : Fin 0 → Fin SBC.rank)) (cos : FVec Ideal SBC .f32) : FVec Ideal SBC .f32 :=
  Host.divf (Host.sqrt (maximumf
      (subf (broadcastInDim SBC ![] hb (constant (F := Ideal) S0 .f32 0x40000000#32))
        (mulf (mulf (broadcastInDim SBC ![] hb (constant (F := Ideal) S0 .f32 0x40000000#32)) cos) cos))
      (broadcastInDim SBC ![] hb (constant (F := Ideal) S0 .f32 0x00000000#32))))
    (broadcastInDim SBC ![] hb (constant (F := Ideal) S0 .f32 0x46800000#32))

/-- Entry by entry it is the scalar loss of the entry's cosine. -/
theorem lossV_apply (hb : S0.BroadcastsInDim SBC (![] : Fin 0 → Fin SBC.rank)) (cos : FVec Ideal SBC .f32) (i : SBC.Idx) :
    lossV hb cos i = loss (cos i) := by
  unfold lossV loss
  show Ideal.div (Ideal.sqrt (max
      (broadcastInDim SBC ![] hb (constant (F := Ideal) S0 .f32 0x40000000#32) i
        - broadcastInDim SBC ![] hb (constant (F := Ideal) S0 .f32 0x40000000#32) i * cos i * cos i)
      (broadcastInDim SBC ![] hb (constant (F := Ideal) S0 .f32 0x00000000#32) i)))
    (broadcastInDim SBC ![] hb (constant (F := Ideal) S0 .f32 0x46800000#32) i) = _
  rw [bcast_const hb 0x40000000#32 i, bcast_const hb 0x00000000#32 i, bcast_const hb 0x46800000#32 i]

/-- Arrays of cosines with equal losses entry by entry have equal loss arrays. -/
theorem lossV_congr (hb : S0.BroadcastsInDim SBC (![] : Fin 0 → Fin SBC.rank)) (cos cos' : FVec Ideal SBC .f32)
    (h : ∀ i, loss (cos i) = loss (cos' i)) : lossV hb cos = lossV hb cos' :=
  funext fun i => by rw [lossV_apply, lossV_apply, h i]

/-- Sum over the channels, sum over the batch, divide by 8. -/
def meanOf (h1 : SBC.ReducesTo [1] SB) (h0 : SB.ReducesTo [0] S0) (hS : 0 < S0.numel) (pc : FVec Ideal SBC .f32) :
    FVec Ideal S0 .f32 :=
  Host.divf (Host.reduceAdd (Host.reduceAdd pc (constant (F := Ideal) S0 .f32 0x00000000#32) h1 hS)
      (constant (F := Ideal) S0 .f32 0x00000000#32) h0 hS)
    (constant (F := Ideal) S0 .f32 0x41000000#32)

end Cert.Affinity

end
-- ==== Proof.KernelResult.lean ====
/-
  The kernel program's result. After the region, the host transposes the three [256, 8] arrays of lane
  products to [8, 256], forms the cosine ⟨s,t⟩ / sqrt (⟨s,s⟩·⟨t,t⟩) of every (batch, channel), and ends as the
  reference does (per-channel loss, two sums, divide by 8). Before the region it only reads the two inputs as
  [8, 256, 16384] arrays.
-/
import proofs.«109314_j4492535792361_1_alg».proof.Proof.KernelArrays
import proofs.«109314_j4492535792361_1_alg».proof.Proof.Tail
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Arrays Cert.Affinity

/-! ## The cosines from the three arrays -/

/-- The [8, 256] array of cosines from the [256, 8] arrays A = ⟨s,s⟩, B = ⟨t,t⟩, C = ⟨s,t⟩. -/
def cosK (A B C : FVec Ideal S256x8 .f32) : FVec Ideal S8x256 .f32 :=
  Host.divf (transpose S8x256 [1, 0] C transposes_S256x8_S8x256_1_0)
    (Host.sqrt (mulf (transpose S8x256 [1, 0] A transposes_S256x8_S8x256_1_0)
      (transpose S8x256 [1, 0] B transposes_S256x8_S8x256_1_0)))

theorem cosK_apply (A B C : FVec Ideal S256x8 .f32) (b : Fin 8) (ch : Fin 256) :
    cosK A B C (ix2 b ch) = Ideal.div (C (ix2 ch b)) (Ideal.sqrt (A (ix2 ch b) * B (ix2 ch b))) := by
  unfold cosK
  show Ideal.div (transpose S8x256 [1, 0] C transposes_S256x8_S8x256_1_0 (ix2 b ch))
    (Ideal.sqrt (transpose S8x256 [1, 0] A transposes_S256x8_S8x256_1_0 (ix2 b ch)
      * transpose S8x256 [1, 0] B transposes_S256x8_S8x256_1_0 (ix2 b ch))) = _
  rw [transpose_ix2_apply, transpose_ix2_apply, transpose_ix2_apply]

theorem G_apply (X Y : S8x256x16384.Idx → EReal) (b : Fin 8) (ch : Fin 256) :
    G X Y (ix2 ch b) = laneDot X Y b ch := rfl

variable (m : (ℓ : Loc nD τ sig) → Buf (Elt Ideal) ℓ) (ρ : Dev nD → PrngReg)

/-! ## Before the region: the inputs read as [8, 256, 16384] -/

theorem sarr_eq (c : Dev nD) :
    sarr m c = shapeCast S8x256x16384 (m ((c : Thread nD τ).loc main_arg0)) shapeCasts_S8x256x128x128_S8x256x16384 := by
  show StableHlo.after hostOps0 (fun b => m (c, b)) (Proc.devRef .tc main_v0) = _
  after_results
  rfl

theorem tarr_eq (c : Dev nD) :
    tarr m c = shapeCast S8x256x16384 (m ((c : Thread nD τ).loc main_arg1)) shapeCasts_S8x256x128x128_S8x256x16384 := by
  show StableHlo.after hostOps0 (fun b => m (c, b)) (Proc.devRef .tc main_v1) = _
  after_results
  rfl

/-! ## After the region -/

/-- The program's result buffer after the host operations that follow the region. -/
theorem tail_eq (c : Dev nD) :
    Pipeline.afterTail₀ cfgs (dats m) 0 (V0 m) [hostOps1] c main_v21
      = meanOf reducesTo_S8x256_S8_d1 reducesTo_S8_S_d0 h_S_
          (lossV bcast_S_S8x256 (cosK (G (sarr m c) (sarr m c)) (G (tarr m c) (tarr m c)) (G (sarr m c) (tarr m c)))) := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v2_0)
        = G (sarr m c) (sarr m c) from (Pipeline.withArrays_arr spec0 launch0.win.arr_inj c _ _ 2).trans (final2 m c),
    show Pipeline.withArrays (cfgs 0).spec c (V0 m c) (fun w => (dats m 0 c).arrAt w (cfgs 0).N) (Proc.devRef .tc main_v2_1)
        = G (tarr m c) (tarr m c) from (Pipeline.withArrays_arr spec0 launch0.win.arr_inj c _ _ 3).trans (final3 m c),
    show Pipeline.withArrays (cfgs 0).spec c (V0 m c) (fun w => (dats m 0 c).arrAt w (cfgs 0).N) (Proc.devRef .tc main_v2_2)
        = G (sarr m c) (tarr m c) from (Pipeline.withArrays_arr spec0 launch0.win.arr_inj c _ _ 4).trans (final4 m c)]
  rfl

/-! ## The run, with the result named -/

theorem run : θ_run defs (onTc (τ := τ) (main (F := Ideal))) ⟨m, fun _ => 0, ρ⟩ fun r => ∀ c : Dev nD,
      r.2.mem ((c.tc : Thread nD τ).loc main_v21)
        = meanOf reducesTo_S8x256_S8_d1 reducesTo_S8_S_d0 h_S_
            (lossV bcast_S_S8x256 (cosK (G (sarr m c) (sarr m c)) (G (tarr m c) (tarr m c)) (G (sarr m c) (tarr m c))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v21 (Pipeline.mem_restRefs_of main_v21 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference's value. Its cosine at (batch b, channel ch) is the sum over the lanes of
  (s_k / sqrt ⟨s,s⟩)·(t_k / sqrt ⟨t,t⟩), where s and t are the rows (b, ch) of the two inputs read as
  [8, 256, 16384] arrays; its result is the shared end (per-channel loss, two sums, divide by 8) of that
  array of cosines.
-/
import proofs.«109314_j4492535792361_1_alg».proof.Proof.Gen.ReferenceIdeal.Read
import proofs.«109314_j4492535792361_1_alg».proof.Proof.Tail

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Affinity

variable (x0 x1 : (⟨S8x256x128x128, .f32⟩ : BufTy).Contents (Elt Ideal))

/-- The result is the shared end of the array of cosines. -/
theorem result_eq :
    val_main_v22 (F := Ideal) x0 x1
      = meanOf reducesTo_S8x256_S8_d1 reducesTo_S8_S_d0 h_S_ (lossV bcast_S_S8x256 (val_main_v9 (F := Ideal) x0 x1)) := by
  unfold val_main_v22 val_main_v21 val_main_v20 val_main_v19 val_main_v18 val_main_v17 val_main_v16 val_main_v15
    val_main_v14 val_main_v13 val_main_v12 val_main_v11 val_main_v10 val_main_cst_0 val_main_cst_1 val_main_cst_2
    val_main_cst_3 val_main_cst_4 val_main_cst_5 val_main_cst_6 meanOf lossV
  rfl

/-! The index functions of the reductions and broadcasts, composed, are the row (b, ch). -/

theorem idx9 (b : Fin 8) (ch : Fin 256) (k : Fin 16384) : idx_main_v9 (ix2 b ch) k = ix3 b ch k :=
  funext fun a => Fin.ext (by match a with | ⟨0, _⟩ => rfl | ⟨1, _⟩ => rfl | ⟨2, _⟩ => rfl)

theorem idx_norm0 (b : Fin 8) (ch : Fin 256) (k j : Fin 16384) :
    idx_main_call0_v1 (idx_main_call0_v2 (idx_main_v3 (ix3 b ch k))) j = ix3 b ch j :=
  funext fun a => Fin.ext (by match a with | ⟨0, _⟩ => rfl | ⟨1, _⟩ => rfl | ⟨2, _⟩ => rfl)

theorem idx_norm1 (b : Fin 8) (ch : Fin 256) (k j : Fin 16384) :
    idx_main_call1_v1 (idx_main_call1_v2 (idx_main_v6 (ix3 b ch k))) j = ix3 b ch j :=
  funext fun a => Fin.ext (by match a with | ⟨0, _⟩ => rfl | ⟨1, _⟩ => rfl | ⟨2, _⟩ => rfl)

/-- The reference's cosine at (b, ch), over the reshaped inputs. -/
theorem cos_apply (b : Fin 8) (ch : Fin 256) :
    val_main_v9 (F := Ideal) x0 x1 (ix2 b ch)
      = ∑ k : Fin 16384,
          Ideal.div (val_main_v0 (F := Ideal) x0 (ix3 b ch k))
              (Ideal.sqrt (∑ j : Fin 16384, val_main_v0 (F := Ideal) x0 (ix3 b ch j) * val_main_v0 (F := Ideal) x0 (ix3 b ch j)))
            * Ideal.div (val_main_v1 (F := Ideal) x1 (ix3 b ch k))
              (Ideal.sqrt (∑ j : Fin 16384, val_main_v1 (F := Ideal) x1 (ix3 b ch j) * val_main_v1 (F := Ideal) x1 (ix3 b ch j))) := by
  rw [val_main_v9_apply]
  simp only [idx9, val_main_v8_apply, val_main_v4_apply, val_main_v7_apply, val_main_v3_apply, val_main_v6_apply,
    val_main_v2_apply, val_main_v5_apply, val_main_call0_v2_apply, val_main_call1_v2_apply,
    val_main_call0_v1_apply, val_main_call1_v1_apply, idx_norm0, idx_norm1, val_main_call0_v0_apply, val_main_call1_v0_apply,
    val_main_cst_apply, val_main_call0_cst_apply, val_main_call1_cst_apply,
    Ideal.ofBits_def, Ideal.ofBits_zero_f32, zero_add, Ideal.mulf_def, Ideal.hostDivf_def, Ideal.hostUnary_sqrt_def]

end Cert.ReferenceIdeal.RefValue

end
-- ==== Proof.Cosine.lean ====
/-
  The cosine law. For lane vectors s, t with real entries, A = ⟨s,s⟩, B = ⟨t,t⟩, C = ⟨s,t⟩:
  the loss of C / sqrt (A·B) is the loss of the sum over the lanes of (s_k / sqrt A)·(t_k / sqrt B).
  With A, B > 0 the two cosines are the real number C / (sqrt A · sqrt B). With A = 0 every s_k is 0,
  so C = 0 and the first cosine is 0/0 = ⊥; in the second every s_k / sqrt A is 0/0 = ⊥, and some lane's
  product is infinite (⊥·⊥ = ⊤ when B = 0 too, else ⊥ times a nonzero real), which makes the whole sum
  infinite. The loss vanishes at both infinities. The case B = 0 is the mirror image.
-/
import proofs.«109314_j4492535792361_1_alg».proof.Proof.Loss

noncomputable section

namespace Cert.Affinity

open Idealize.ShloMosaic

theorem div_zero_zero : Ideal.div 0 0 = ⊥ := by
  unfold Ideal.div
  rw [if_pos rfl, if_neg (lt_irrefl _)]

theorem sqrt_coe_nonneg {r : ℝ} (h : 0 ≤ r) : Ideal.sqrt (r : EReal) = ((Real.sqrt r : ℝ) : EReal) := by
  rw [Ideal.sqrt_coe, if_neg (not_lt.mpr h)]

theorem div_coe_coe (x : ℝ) {y : ℝ} (hy : y ≠ 0) : Ideal.div (x : EReal) (y : EReal) = ((x / y : ℝ) : EReal) := by
  rw [Ideal.div_coe hy, ← EReal.coe_mul, mul_one_div]

/-- A nonzero real times -∞ is an infinity. -/
theorem coe_mul_bot_inf {r : ℝ} (hr : r ≠ 0) : (r : EReal) * ⊥ = ⊥ ∨ (r : EReal) * ⊥ = ⊤ := by
  rcases lt_or_gt_of_ne hr with h | h
  · exact Or.inr (EReal.coe_mul_bot_of_neg h)
  · exact Or.inl (EReal.coe_mul_bot_of_pos h)

/-- A sum of squares of reals that vanishes has every term zero. -/
theorem all_zero_of_sumsq {K : Type} [Fintype K] (a : K → ℝ) (h : ∑ k, a k * a k = 0) (k : K) : a k = 0 :=
  mul_self_eq_zero.mp
    ((Finset.sum_eq_zero_iff_of_nonneg fun k _ => mul_self_nonneg (a k)).mp h k (Finset.mem_univ k))

/-- A sum of squares of reals that does not vanish has a nonzero term. -/
theorem exists_ne_of_sumsq {K : Type} [Fintype K] (a : K → ℝ) (h : ∑ k, a k * a k ≠ 0) : ∃ k, a k ≠ 0 := by
  by_contra hn
  exact h (Finset.sum_eq_zero fun k _ => by rw [not_not.mp (not_exists.mp hn k), mul_zero])

/-- The quotient of a lane by the norm: -∞ on a zero vector, else the real quotient. -/
theorem unit_lane {K : Type} [Fintype K] (a : K → ℝ) (k : K) :
    Ideal.div (a k : EReal) (Ideal.sqrt ((∑ j, a j * a j : ℝ) : EReal))
      = if (∑ j, a j * a j) = 0 then ⊥ else ((a k / Real.sqrt (∑ j, a j * a j) : ℝ) : EReal) := by
  have h0 : 0 ≤ ∑ j, a j * a j := Finset.sum_nonneg fun j _ => mul_self_nonneg (a j)
  rw [sqrt_coe_nonneg h0]
  split_ifs with hA
  · rw [all_zero_of_sumsq a hA k, hA, Real.sqrt_zero, EReal.coe_zero, div_zero_zero]
  · exact div_coe_coe _ (Real.sqrt_ne_zero'.mpr (lt_of_le_of_ne h0 (Ne.symm hA)))

/-- THE COSINE LAW, for lane vectors given as extended reals that are real. -/
theorem loss_cos_eq {K : Type} [Fintype K] [Nonempty K] (s t : K → EReal)
    (hs : ∀ k, ∃ r : ℝ, s k = r) (ht : ∀ k, ∃ r : ℝ, t k = r) :
    loss (Ideal.div (∑ k, s k * t k) (Ideal.sqrt ((∑ k, s k * s k) * (∑ k, t k * t k))))
      = loss (∑ k, Ideal.div (s k) (Ideal.sqrt (∑ j, s j * s j)) * Ideal.div (t k) (Ideal.sqrt (∑ j, t j * t j))) := by
  classical
  choose a ha using hs
  choose b hb using ht
  obtain rfl : s = fun k => ((a k : ℝ) : EReal) := funext ha
  obtain rfl : t = fun k => ((b k : ℝ) : EReal) := funext hb
  have hss : (∑ k, ((a k : ℝ) : EReal) * ((a k : ℝ) : EReal)) = ((∑ k, a k * a k : ℝ) : EReal) := by
    simp only [← EReal.coe_mul]; exact coe_sum _ _
  have htt : (∑ k, ((b k : ℝ) : EReal) * ((b k : ℝ) : EReal)) = ((∑ k, b k * b k : ℝ) : EReal) := by
    simp only [← EReal.coe_mul]; exact coe_sum _ _
  have hst : (∑ k, ((a k : ℝ) : EReal) * ((b k : ℝ) : EReal)) = ((∑ k, a k * b k : ℝ) : EReal) := by
    simp only [← EReal.coe_mul]; exact coe_sum _ _
  simp only [hss, htt, hst, unit_lane]
  have hA0 : 0 ≤ ∑ j, a j * a j := Finset.sum_nonneg fun j _ => mul_self_nonneg (a j)
  have hB0 : 0 ≤ ∑ j, b j * b j := Finset.sum_nonneg fun j _ => mul_self_nonneg (b j)
  rw [← EReal.coe_mul, sqrt_coe_nonneg (mul_nonneg hA0 hB0)]
  by_cases hA : (∑ j, a j * a j) = 0
  · -- the first vector is zero
    have hC : (∑ k, a k * b k) = 0 := Finset.sum_eq_zero fun k _ => by rw [all_zero_of_sumsq a hA k, zero_mul]
    rw [hA, hC, zero_mul, Real.sqrt_zero, EReal.coe_zero, div_zero_zero, loss_bot]
    simp only [if_true]
    refine (loss_inf ?_).symm
    by_cases hB : (∑ j, b j * b j) = 0
    · simp only [hB, if_true]
      exact sum_inf _ (Classical.arbitrary K) (Or.inr EReal.bot_mul_bot)
    · simp only [hB, if_false]
      obtain ⟨k₀, hk₀⟩ := exists_ne_of_sumsq b hB
      refine sum_inf _ k₀ ?_
      rw [mul_comm]
      exact coe_mul_bot_inf (div_ne_zero hk₀ (Real.sqrt_ne_zero'.mpr (lt_of_le_of_ne hB0 (Ne.symm hB))))
  · by_cases hB : (∑ j, b j * b j) = 0
    · -- the second vector is zero
      have hC : (∑ k, a k * b k) = 0 := Finset.sum_eq_zero fun k _ => by rw [all_zero_of_sumsq b hB k, mul_zero]
      rw [hB, hC, mul_zero, Real.sqrt_zero, EReal.coe_zero, div_zero_zero, loss_bot]
      simp only [hA, if_false, if_true]
      refine (loss_inf ?_).symm
      obtain ⟨k₀, hk₀⟩ := exists_ne_of_sumsq a hA
      refine sum_inf _ k₀ ?_
      exact coe_mul_bot_inf (div_ne_zero hk₀ (Real.sqrt_ne_zero'.mpr (lt_of_le_of_ne hA0 (Ne.symm hA))))
    · -- both norms positive: one real number
      simp only [hA, hB, if_false]
      have hApos : 0 < ∑ j, a j * a j := lt_of_le_of_ne hA0 (Ne.symm hA)
      have hBpos : 0 < ∑ j, b j * b j := lt_of_le_of_ne hB0 (Ne.symm hB)
      rw [div_coe_coe _ (Real.sqrt_ne_zero'.mpr (mul_pos hApos hBpos))]
      simp only [← EReal.coe_mul]
      rw [coe_sum]
      congr 2
      rw [Real.sqrt_mul hA0, Finset.sum_div]
      refine Finset.sum_congr rfl fun k _ => ?_
      rw [div_mul_div_comm]

end Cert.Affinity

end
-- ==== Proof.Bridge.lean ====
/-
  The bridge: the kernel's and the reference's arrays of per-channel losses are one array.

  At (batch b, channel ch) the kernel's cosine is ⟨s,t⟩ / sqrt (⟨s,s⟩·⟨t,t⟩) and the reference's is the sum over
  the lanes of (s_k / sqrt ⟨s,s⟩)·(t_k / sqrt ⟨t,t⟩), for the same rows s, t of the two inputs read as
  [8, 256, 16384] arrays. The inputs hold reals, so the cosine law gives equal losses.
-/
import proofs.«109314_j4492535792361_1_alg».proof.Proof.KernelResult
import proofs.«109314_j4492535792361_1_alg».proof.Proof.RefValue
import proofs.«109314_j4492535792361_1_alg».proof.Proof.Cosine

noncomputable section

open Idealize.ShloMosaic Idealize.ShloMosaic.ValueIdx

namespace Cert.Affinity

open Cert.KernelIdeal.Arrays Cert.KernelIdeal.Result

/-- Reading an array of reals in another shape gives reals. -/
theorem real_shapeCast {s t : Shape} (x : s.Idx → EReal) (h : s.ShapeCasts t) (hx : ∀ i, ∃ r : ℝ, x i = r)
    (j : t.Idx) : ∃ r : ℝ, shapeCast t x h j = r := by
  unfold shapeCast
  exact hx _

/-- THE TWO LOSS ARRAYS ARE EQUAL, for inputs that hold reals. -/
theorem losses_eq (x0 x1 : FVec Ideal Cert.KernelIdeal.S8x256x128x128 .f32)
    (hx0 : ∀ i, ∃ r : ℝ, x0 i = r) (hx1 : ∀ i, ∃ r : ℝ, x1 i = r) :
    lossV Cert.KernelIdeal.Facts₀.bcast_S_S8x256
        (cosK
          (G (shapeCast Cert.KernelIdeal.S8x256x16384 x0 Cert.KernelIdeal.Facts₀.shapeCasts_S8x256x128x128_S8x256x16384)
            (shapeCast Cert.KernelIdeal.S8x256x16384 x0 Cert.KernelIdeal.Facts₀.shapeCasts_S8x256x128x128_S8x256x16384))
          (G (shapeCast Cert.KernelIdeal.S8x256x16384 x1 Cert.KernelIdeal.Facts₀.shapeCasts_S8x256x128x128_S8x256x16384)
            (shapeCast Cert.KernelIdeal.S8x256x16384 x1 Cert.KernelIdeal.Facts₀.shapeCasts_S8x256x128x128_S8x256x16384))
          (G (shapeCast Cert.KernelIdeal.S8x256x16384 x0 Cert.KernelIdeal.Facts₀.shapeCasts_S8x256x128x128_S8x256x16384)
            (shapeCast Cert.KernelIdeal.S8x256x16384 x1 Cert.KernelIdeal.Facts₀.shapeCasts_S8x256x128x128_S8x256x16384)))
      = lossV Cert.ReferenceIdeal.Facts₀.bcast_S_S8x256 (Cert.ReferenceIdeal.Read.val_main_v9 (F := Ideal) x0 x1) := by
  refine lossV_congr _ _ _ fun i => ?_
  obtain ⟨b, ch, rfl⟩ : ∃ (b : Fin 8) (ch : Fin 256), i = ix2 b ch := ⟨i 0, i 1, eq_ix2 i⟩
  rw [cosK_apply, G_apply, G_apply, G_apply, laneDot_def, laneDot_def, laneDot_def,
    Cert.ReferenceIdeal.RefValue.cos_apply]
  exact loss_cos_eq
    (fun k : Fin 16384 => shapeCast Cert.KernelIdeal.S8x256x16384 x0 Cert.KernelIdeal.Facts₀.shapeCasts_S8x256x128x128_S8x256x16384 (ix3 b ch k))
    (fun k : Fin 16384 => shapeCast Cert.KernelIdeal.S8x256x16384 x1 Cert.KernelIdeal.Facts₀.shapeCasts_S8x256x128x128_S8x256x16384 (ix3 b ch k))
    (fun k => real_shapeCast _ _ hx0 _) (fun k => real_shapeCast _ _ hx1 _)

end Cert.Affinity

end
-- ==== Proof.Finite.lean ====
/-
  Every entry of both inputs is a real number: what the precondition says.

  The precondition is the conjunction of two tests, one per input, that every entry's absolute value is
  below +∞. An extended real whose absolute value is below +∞ is neither infinity, hence a real.
-/
import proofs.«109314_j4492535792361_1_alg».proof.Pre_finite_inputs
import Idealize.ShloMosaic.Lib.ReduceAll
import Idealize.ShloMosaic.Lib.ValueIdx
import Idealize.ShloMosaic.PureOps.Ideal

noncomputable section

namespace Cert.Affinity

open Idealize.ShloMosaic

/-- An extended real whose absolute value compares below the +∞ pattern is a real. -/
theorem real_of_abs_lt_inf (x : EReal)
    (h : FloatOps.cmpf (F := Ideal) .olt (FloatOps.hostAbsf (F := Ideal) (φ := .f32) x)
      (FloatOps.ofBits (F := Ideal) .f32 0x7F800000#32) = 1#1) : ∃ r : ℝ, x = r := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x using EReal.rec with
  | bot => exfalso; revert h'; simp [Ideal.cmp]
  | coe r => exact ⟨r, rfl⟩
  | top => exfalso; revert h'; simp [Ideal.cmp]

/-- Under the precondition both inputs hold reals only. -/
theorem real_of_pre [Cert.Pre_finite_inputs.Facts]
    (x0 x1 : FVec Ideal Cert.Pre_finite_inputs.S8x256x128x128 .f32)
    (h : Cert.Pre_finite_inputs.fn (F := Ideal) x0 x1 = fun _ => 1#1) :
    (∀ i, ∃ r : ℝ, x0 i = r) ∧ (∀ i, ∃ r : ℝ, x1 i = r) := by
  haveI : Subsingleton Cert.Pre_finite_inputs.S_.Idx := ⟨fun a b => funext fun d => d.elim0⟩
  have h0 := congrFun h ValueIdx.ix0
  dsimp only [Cert.Pre_finite_inputs.fn] at h0
  have h1 : IntOp.andi _ _ = 1#1 := h0
  obtain ⟨ha, hb⟩ := IntOp.andi_eq_one.mp h1
  exact ⟨fun i => real_of_abs_lt_inf _ (Host.reduce_andi_all _ _ _ _ _ ha i),
    fun i => real_of_abs_lt_inf _ (Host.reduce_andi_all _ _ _ _ _ hb i)⟩

end Cert.Affinity

end
-- ==== Proof.lean ====
/-
  The affinity loss: a Pallas kernel against its jnp reference, over the extended reals.

  Per (batch, channel) let s, t be the 16384-entry spatial vectors of the two inputs. The reference normalizes
  each by its Euclidean norm, takes the cosine as the sum of the products of the normalized entries, and returns
  the mean over the batch of the sum over the channels of sqrt (max (2 - 2·cos²) 0) / 16384. The kernel computes
  the three lane products ⟨s,s⟩, ⟨t,t⟩, ⟨s,t⟩ in one pass and takes the cosine as ⟨s,t⟩ / sqrt (⟨s,s⟩·⟨t,t⟩).

  For real inputs with both norms positive the two cosines are one number. Where a norm vanishes the quotients
  are 0/0, the two cosines need not agree, but both are infinite and the loss is 0 at either infinity. So the
  results are equal; finiteness of the inputs is what makes every entry a real, and is used.

  The frames are the generated ones (the reference's is its generated run with the result dropped); no
  operation was rewritten by the idealization, so there is nothing to preserve.
-/
import proofs.«109314_j4492535792361_1_alg».proof.Defs
import proofs.«109314_j4492535792361_1_alg».proof.Proof.Gen.Kernel
import proofs.«109314_j4492535792361_1_alg».proof.Proof.Gen.Kernel.Skeleton
import proofs.«109314_j4492535792361_1_alg».proof.Proof.Gen.Kernel.Launch
import proofs.«109314_j4492535792361_1_alg».proof.Proof.Gen.Kernel.Points
import proofs.«109314_j4492535792361_1_alg».proof.Proof.Gen.Kernel.Frame
import proofs.«109314_j4492535792361_1_alg».proof.Proof.Gen.KernelIdeal
import proofs.«109314_j4492535792361_1_alg».proof.Proof.Gen.KernelIdeal.Skeleton
import proofs.«109314_j4492535792361_1_alg».proof.Proof.Gen.KernelIdeal.Launch
import proofs.«109314_j4492535792361_1_alg».proof.Proof.Gen.KernelIdeal.Points
import proofs.«109314_j4492535792361_1_alg».proof.Proof.Gen.KernelIdeal.Frame
import proofs.«109314_j4492535792361_1_alg».proof.Proof.Gen.ReferenceIdeal
import proofs.«109314_j4492535792361_1_alg».proof.Proof.Gen.ReferenceIdeal.Run
import proofs.«109314_j4492535792361_1_alg».proof.Proof.Gen.ReferenceIdeal.Read
import proofs.«109314_j4492535792361_1_alg».proof.Proof.Gen.Pre_finite_inputs
import proofs.«109314_j4492535792361_1_alg».proof.Proof.Bridge
import proofs.«109314_j4492535792361_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the mean of the per-channel losses of the same rows: the kernel's run names its result
    over the region's arrays, the reference's over its stages; the inputs agree and hold reals. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨?_, (h c).2⟩)
    (Cert.ReferenceIdeal.Value.run (F := Ideal) m' ρ')
  obtain ⟨h0, h1⟩ := Cert.Affinity.real_of_pre _ _ (hpre c)
  rw [(h c).1, Cert.ReferenceIdeal.Read.val_main_v22_eq, Cert.ReferenceIdeal.RefValue.result_eq, (hagree c).1,
    (hagree c).2, Cert.KernelIdeal.Result.sarr_eq, Cert.KernelIdeal.Result.tarr_eq]
  exact congrArg (Cert.Affinity.meanOf _ _ _) (Cert.Affinity.losses_eq _ _ h0 h1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
